-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8191 : Shape := ⟨1, ![8191]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8191 : S_.BroadcastsInDim S8191 (![] : Fin 0 → Fin S8191.rank)
  reducesTo_S8191_S_d0 : S8191.ReducesTo [0] S_

variable [Facts]

def fn {F : FTy → Type} [FloatOps F] (main_arg0 : FVec F S8192x4096 .f32) (main_arg1 : FVec F S8191 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8191 .f32 := Host.absf main_arg1
  let main_cst_0 : FVec F S_ .f32 := constant S_ .f32 0x7F800000#32
  let main_v5 : FVec F S8191 .f32 := broadcastInDim S8191 ![] bcast_S_S8191 main_cst_0
  let main_v6 : IVec S8191 1 := cmpf .olt main_v4 main_v5
  let main_c_1 : IVec S_ 1 := constantI S_ 1 1#1
  let main_v7 : IVec S_ 1 := (fun x v => Host.reduce IntOp.andi x v reducesTo_S8191_S_d0 h_S_) main_v6 main_c_1
  let main_v8 : IVec S_ 1 := andi main_v3 main_v7
  main_v8
-- ==== Kernel.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096x1, .i32⟩
  | .hbm, ⟨17, _⟩ => ⟨S4096x4096, .f32⟩
  | .hbm, ⟨18, _⟩ => ⟨S8192x4096, .bf16⟩
  | .hbm, ⟨19, _⟩ => ⟨S4096x4096, .bf16⟩
  | .hbm, ⟨20, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  gather_S8191_S4096x4096x1_S4096x4096_n_0_n_n_0_2_1_wf : GatherDims.WF S8191 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096x1, .i32⟩
  | .hbm, ⟨17, _⟩ => ⟨S4096x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  gather_S8191_S4096x4096x1_S4096x4096_n_0_n_n_0_2_1_wf : GatherDims.WF S8191 S4096x4096x1 S4096x4096 [] [0] [] [0] [] 2 ![1]
  dot_S8192x4096_S4096x4096_S8192x4096_1_1_0_0_n_n_wf : DotDims.WF S8192x4096 S4096x4096 S8192x4096 [1] [1] [0] [0] [] []

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, in each of the body's three control cases.

  The body keeps a running block acc of shape [1024, 1024] in a scratch buffer.  Write step(acc, x, w) for the
  block acc + x·w (the matrix product of the point's two input blocks into a zero accumulator, added to acc), and
  zero for the block of zeros.  Then, whatever the staging buffers are:
    * at the first point of a run of four (the contraction's block number is 0) the scratch is first set to zero and
      then updated, so it ends at step(zero, x, w), whatever it held before;
    * at every later point it ends at step(acc, x, w), acc being what the point before left;
    * at the last point of the run (the contraction's block number is 3) the output block is, besides, a copy of
      the scratch after its update: step(acc, x, w) too.
  Each statement is read off the stores the case's run recorded: the last store through the whole buffer decides
  its contents, and a load through the whole buffer of what one store left reads that store's value.
-/
import proofs.«135761_j35399120454032_1_alg».proof.Proof.Gen.KernelIdeal.Frame
import Idealize.ShloMosaic.Lib.Pipeline.Value
import Idealize.ShloMosaic.Lib.Tactic

set_option maxRecDepth 16384

noncomputable section

namespace Cert.KernelIdeal.Steps

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access, as a function. -/
theorem zero_offsets : (![0, 0] : Fin 2 → Nat) = fun _ => 0 := funext fun a => by
  match a with
  | ⟨0, _⟩ => rfl
  | ⟨1, _⟩ => rfl

/-- First point of a run: the scratch ends at step(zero, x, w). -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) zero_offsets]
  simp only [View.readCov_unit_zero (S := S1024x1024) _ zero_offsets, View.readAt_eq_ld, harg3.read_unread, harg4.read_unread,
    View.ld_unit_zero (S := S1024x1024) zero_offsets]

/-- A middle point of a run: the scratch ends at step(acc, x, w). -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1024) zero_offsets]
  simp only [View.readAt_eq_ld, harg3.read_unread, harg4.read_unread, harg6.read_unread,
    View.ld_unit_zero (S := S1024x1024) zero_offsets]

/-- The last point of a run: the scratch ends at step(acc, x, w), -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1024) zero_offsets]
  simp only [View.readAt_eq_ld, harg3.read_unread, harg4.read_unread, harg6.read_unread,
    View.ld_unit_zero (S := S1024x1024) zero_offsets]

/-- and the output block is a copy of it. -/
theorem output_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) zero_offsets]
  simp only [View.readCov_unit_zero (S := S1024x1024) _ zero_offsets, View.readAt_eq_ld, harg3.read_unread, harg4.read_unread,
    harg6.read_unread, View.ld_unit_zero (S := S1024x1024) zero_offsets]

end Cert.KernelIdeal.Steps

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.SumBlocks.lean ====
/-
  Sums over a long axis, block by block.

  A sum over Fin (m * n) is the double sum over block s < m and offset k < n of the term at n * s + k.  With m = 4 and
  n = 1024 this is what turns one contraction over 4096 columns into four contractions over 1024 columns each, added
  up in any grouping (addition on the extended reals is commutative and associative, so no finiteness is needed).
-/
import Idealize.ShloMosaic.Lib.ValueIdx
import Mathlib.Algebra.BigOperators.Fin

noncomputable section

open scoped BigOperators

namespace Cert.HankelProduct

/-- A sum over Fin (m * n), regrouped by blocks of n consecutive indices. -/
theorem sum_blocks {β : Type*} [AddCommMonoid β] (m n : ℕ) (f : Fin (m * n) → β) :
    ∑ j, f j = ∑ s : Fin m, ∑ k : Fin n, f (finProdFinEquiv (s, k)) := by
  rw [← finProdFinEquiv.sum_comp, Fintype.sum_prod_type]

/-- The sum over 4096 indices as four sums over 1024 indices, the s-th over the indices 1024 s + k. -/
theorem sum_four_blocks {β : Type*} [AddCommMonoid β] (f : Fin 4096 → β) :
    ∑ j, f j
      = ((∑ k : Fin 1024, f ⟨1024 * 0 + k.val, by omega⟩) + (∑ k : Fin 1024, f ⟨1024 * 1 + k.val, by omega⟩)
          + (∑ k : Fin 1024, f ⟨1024 * 2 + k.val, by omega⟩)) + (∑ k : Fin 1024, f ⟨1024 * 3 + k.val, by omega⟩) := by
  have h := sum_blocks 4 1024 f
  rw [h, Fin.sum_univ_four]
  have e : ∀ (s : Fin 4) (k : Fin 1024), (finProdFinEquiv (s, k) : Fin (4 * 1024)) = ⟨1024 * s.val + k.val, by omega⟩ :=
    fun s k => Fin.ext (by simp [finProdFinEquiv, Nat.add_comm])
  simp only [e]
  rfl

end Cert.HankelProduct

end
-- ==== Proof.Hankel.lean ====
/-
  The gathered matrix and the reference's product.

  Both programs first build, on the host, the matrix W of shape [4096, 4096] whose entry (a, b) is the entry of the
  vector d (8191 entries) at the start index s(a, b), read signed and clamped into [0, 8190], where
  s(a, b) = a + b as 32-bit words (plus 8191 where that sum reads negative: never, but the program says it).
  Since word addition commutes, s(a, b) = s(b, a), so W is symmetric: W(a, b) = W(b, a).  Nothing more about the start
  index is needed: its value is never computed here.

  The reference's result at (p, q) is then the sum over k < 4096 of x(p, k) · W(q, k), the product of x with the
  transpose of W.
-/
import proofs.«135761_j35399120454032_1_alg».proof.Proof.Gen.ReferenceIdeal.Read

noncomputable section

open scoped BigOperators

namespace Cert.HankelProduct

open Idealize.ShloMosaic Idealize.ShloMosaic.ValueIdx
open Cert.ReferenceIdeal Cert.ReferenceIdeal.Read

/-- The matrix W gathered from d. -/
abbrev W (d : (⟨1, ![8191]⟩ : Shape).Idx → EReal) : (⟨2, ![4096, 4096]⟩ : Shape).Idx → EReal :=
  val_main_v13 (F := Ideal) d

/-- The sum of the row and column numbers, as the program forms it: the same word at (a, b) and at (b, a). -/
theorem rowcol_sum_symm (a b : Fin 4096) :
    val_main_v6 (F := Ideal) (ix2 a b) = val_main_v6 (F := Ideal) (ix2 b a) := by
  rw [val_main_v6_apply, val_main_v6_apply, val_main_v4_apply, val_main_v5_apply, val_main_v4_apply, val_main_v5_apply,
    val_main_v1_apply, val_main_v3_apply, val_main_v1_apply, val_main_v3_apply,
    val_main_v0_apply, val_main_v2_apply, val_main_v0_apply, val_main_v2_apply]
  show IntOp.addi (BitVec.ofNat 32 a.val) (BitVec.ofNat 32 b.val) = IntOp.addi (BitVec.ofNat 32 b.val) (BitVec.ofNat 32 a.val)
  exact BitVec.add_comm _ _

/-- The start index at (a, b) is the start index at (b, a): it is a function of the sum of the two numbers only. -/
theorem start_symm (a b : Fin 4096) :
    val_main_v11 (F := Ideal) (ix2 a b) = val_main_v11 (F := Ideal) (ix2 b a) := by
  rw [val_main_v11_apply, val_main_v11_apply, val_main_v8_apply, val_main_v8_apply, val_main_v10_apply, val_main_v10_apply,
    val_main_v7_apply, val_main_v7_apply, val_main_v9_apply, val_main_v9_apply, rowcol_sum_symm a b]

/-- Reading d at a clamped start index depends on the start index only. -/
theorem at_clamped (d : (⟨1, ![8191]⟩ : Shape).Idx → EReal) (u v : BitVec 32) (h : u = v) :
    d (ix1 ⟨min u.toInt.toNat (8191 - 1), by omega⟩) = d (ix1 ⟨min v.toInt.toNat (8191 - 1), by omega⟩) := by
  subst h; rfl

/-- W at (a, b) is d at the start index there, read signed and clamped. -/
theorem W_apply (d : (⟨1, ![8191]⟩ : Shape).Idx → EReal) (a b : Fin 4096) :
    W d (ix2 a b)
      = d (ix1 ⟨min (val_main_v11 (F := Ideal) (ix2 a b)).toInt.toNat (8191 - 1), by omega⟩) := by
  show Host.gather (takeDims 8191 4096 4096 Facts₀.gather_S8191_S4096x4096x1_S4096x4096_n_0_n_n_0_2_1_wf) d
    (val_main_v12 (F := Ideal)) (ix2 a b) = _
  rw [gather_take_apply (by decide)]
  have he : idx_main_v12 (takeIdx (ix2 a b)) = ix2 a b := funext fun e => by
    match e with
    | ⟨0, _⟩ => rfl
    | ⟨1, _⟩ => rfl
  have h : val_main_v12 (F := Ideal) (takeIdx (ix2 a b)) = val_main_v11 (F := Ideal) (ix2 a b) := by
    rw [val_main_v12_apply, he]
  exact at_clamped d _ _ h

/-- W is symmetric. -/
theorem W_symm (d : (⟨1, ![8191]⟩ : Shape).Idx → EReal) (a b : Fin 4096) : W d (ix2 a b) = W d (ix2 b a) := by
  rw [W_apply, W_apply]
  exact at_clamped d _ _ (start_symm a b)

/-- The reference's result at (p, q): the sum over k of x(p, k) · W(q, k). -/
theorem reference_apply (x : (⟨2, ![8192, 4096]⟩ : Shape).Idx → EReal) (d : (⟨1, ![8191]⟩ : Shape).Idx → EReal)
    (p : Fin 8192) (q : Fin 4096) :
    val_main_v14 (F := Ideal) x d (ix2 p q) = ∑ k : Fin 4096, x (ix2 p k) * W d (ix2 q k) := by
  rw [val_main_v14_apply]
  refine Finset.sum_congr rfl fun k _ => ?_
  have el : lidx_main_v14 (ix2 p q) k = ix2 p k := funext fun a => by
    match a with
    | ⟨0, _⟩ => rfl
    | ⟨1, _⟩ => rfl
  have er : ridx_main_v14 (ix2 p q) k = ix2 q k := funext fun a => by
    match a with
    | ⟨0, _⟩ => rfl
    | ⟨1, _⟩ => rfl
  rw [el, er]

end Cert.HankelProduct

end
-- ==== Proof.Blocks.lean ====
/-
  The kernel's result array.

  The grid has 128 points; point t stands for (i, j, s) with t = 16 i + 4 j + s, i < 8 a block of 1024 rows of x,
  j < 4 a block of 1024 columns of the result, s < 4 a block of 1024 indices of the contraction.  At point t the body
  sees the block X of x at rows 1024 i.., columns 1024 s.., and the block B of the gathered matrix W at rows 1024 s..,
  columns 1024 j...  Over the four points of a run (s = 0, 1, 2, 3) the scratch goes through
      ((((0 + X₀·B₀) + X₁·B₁) + X₂·B₂) + X₃·B₃),
  and the last point writes that block back as block (i, j) of the result.

  At entry (p, q) of that block the four products are the four quarters of one sum over the 4096 contraction
  indices k of x(1024 i + p, k) · W(k, 1024 j + q); W being symmetric, this is the reference's entry
  Σ_k x(P, k) · W(Q, k) at P = 1024 i + p, Q = 1024 j + q.  Only that addition on the extended reals is commutative
  and associative, and that zero is neutral, is used; no entry needs to be finite.

  The 32 blocks (i, j) written back tile the result array, so the array ends at the reference's value everywhere.
-/
import proofs.«135761_j35399120454032_1_alg».proof.Proof.Gen.KernelIdeal.Value
import proofs.«135761_j35399120454032_1_alg».proof.Proof.Pieces
import proofs.«135761_j35399120454032_1_alg».proof.Proof.LibOuterDot
import proofs.«135761_j35399120454032_1_alg».proof.Proof.SumBlocks
import proofs.«135761_j35399120454032_1_alg».proof.Proof.Hankel
import Idealize.ShloMosaic.Lib.StableHlo.Run
import Idealize.ShloMosaic.Lib.ValueIdx
import Idealize.ShloMosaic.Lib.Pipeline.Value

set_option maxRecDepth 16384

noncomputable section

open scoped BigOperators

namespace Cert.KernelIdeal.Blocks

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

/-! ## One accumulation step at an entry -/

/-- The block of zeros. -/
theorem zero_apply (p q : Fin 1024) : k0_pay1 (F := Ideal) (ix2 p q) = 0 := by
  unfold k0_pay1
  simp only [shapeCast_self]
  exact Ideal.ofBits_zero_f32

/-- step(acc, A, B) at (p, q): acc(p, q) plus the sum over k < 1024 of A(p, k) · B(k, q). -/
theorem step_apply (acc : Vec Ideal S1024x1024 .f32) (A B : Vec Ideal S1024x1024 .bf16) (p q : Fin 1024) :
    k0_pay2 (F := Ideal) acc A B (ix2 p q) = acc (ix2 p q) + ∑ k : Fin 1024, A (ix2 p k) * B (ix2 k q) := by
  unfold k0_pay2
  simp only [shapeCast_self]
  rw [addf_apply]
  congr 1
  exact Cert.LibOuterDot.matmul_zero_ix2 dot_S1024x1024_S1024x1024_S1024x1024_1_0_0_1_n_n rfl rfl rfl rfl rfl rfl rfl rfl
    none A B p q

/-- FOUR STEPS FROM ZERO ARE ONE LONG CONTRACTION.  If X_s is the block of x at rows 1024 i.., columns 1024 s..,
    and B_s the block of the symmetric matrix M at rows 1024 s.., columns 1024 j.., then the chain of four steps at
    (p, q) is the sum over all k < 4096 of x(1024 i + p, k) · M(1024 j + q, k). -/
theorem four_steps (x : (⟨2, ![8192, 4096]⟩ : Shape).Idx → EReal) (M : (⟨2, ![4096, 4096]⟩ : Shape).Idx → EReal)
    (hM : ∀ a b : Fin 4096, M (ix2 a b) = M (ix2 b a))
    (X0 X1 X2 X3 B0 B1 B2 B3 : Vec Ideal S1024x1024 .bf16) (P : Fin 8192) (Q : Fin 4096) (p q : Fin 1024)
    (hX0 : ∀ k : Fin 1024, X0 (ix2 p k) = x (ix2 P ⟨1024 * 0 + k.val, by omega⟩))
    (hX1 : ∀ k : Fin 1024, X1 (ix2 p k) = x (ix2 P ⟨1024 * 1 + k.val, by omega⟩))
    (hX2 : ∀ k : Fin 1024, X2 (ix2 p k) = x (ix2 P ⟨1024 * 2 + k.val, by omega⟩))
    (hX3 : ∀ k : Fin 1024, X3 (ix2 p k) = x (ix2 P ⟨1024 * 3 + k.val, by omega⟩))
    (hB0 : ∀ k : Fin 1024, B0 (ix2 k q) = M (ix2 ⟨1024 * 0 + k.val, by omega⟩ Q))
    (hB1 : ∀ k : Fin 1024, B1 (ix2 k q) = M (ix2 ⟨1024 * 1 + k.val, by omega⟩ Q))
    (hB2 : ∀ k : Fin 1024, B2 (ix2 k q) = M (ix2 ⟨1024 * 2 + k.val, by omega⟩ Q))
    (hB3 : ∀ k : Fin 1024, B3 (ix2 k q) = M (ix2 ⟨1024 * 3 + k.val, by omega⟩ Q)) :
    k0_pay2 (F := Ideal) (k0_pay2 (k0_pay2 (k0_pay2 (k0_pay1 (F := Ideal)) X0 B0) X1 B1) X2 B2) X3 B3 (ix2 p q)
      = ∑ k : Fin 4096, x (ix2 P k) * M (ix2 Q k) := by
  rw [step_apply, step_apply, step_apply, step_apply, zero_apply, zero_add,
    Cert.HankelProduct.sum_four_blocks (fun k => x (ix2 P k) * M (ix2 Q k))]
  simp only [hX0, hX1, hX2, hX3, hB0, hB1, hB2, hB3, hM Q]

variable (m : (ℓ : Loc nD τ sig) → Buf (Elt Ideal) ℓ) (ρ : Dev nD → PrngReg)

/-! ## The two staged arrays, as the region finds them -/

/-- The argument x and the argument d, on core c. -/
abbrev xarr (c : Dev nD) : S8192x4096.Idx → EReal := m ((c : Thread nD τ).loc main_arg0)
abbrev darr (c : Dev nD) : S8191.Idx → EReal := m ((c : Thread nD τ).loc main_arg1)

/-- The first staged array is x (the change of format is the identity on the extended reals). -/
theorem staged_x (c : Dev nD) : (V m c main_v14 : S8192x4096.Idx → EReal) = xarr m c := by
  dsimp only [Gen.V, Gen.hostOps0]; after_results; rfl

/-- The second staged array is the matrix W gathered from d: the host operations before the region are, one by
    one, the reference's own. -/
theorem staged_w (c : Dev nD) : (V m c main_v15 : S4096x4096.Idx → EReal) = Cert.HankelProduct.W (darr m c) := by
  dsimp only [Gen.V, Gen.hostOps0]; after_results; rfl

/-! ## The input blocks of a point -/

/-- The two input blocks at point t. -/
abbrev xblk (c : Dev nD) (t : Fin cfg0.N) : Vec Ideal S1024x1024 .bf16 := iblk m c 0 t
abbrev wblk (c : Dev nD) (t : Fin cfg0.N) : Vec Ideal S1024x1024 .bf16 := iblk m c 1 t

/-- Point t = 16 i + 4 j + s has its blocks at (i, s) of x, (s, j) of W and (i, j) of the result. -/
theorem block_numbers : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The x block at (p, k) is x at row 1024 i + p, column 1024 s + k. -/
theorem xblk_apply (c : Dev nD) (t : Fin cfg0.N) (p k : Fin 1024) (P : Fin 8192) (K : Fin 4096)
    (hP : P.val = 1024 * (t.val / 16) + p.val) (hK : K.val = 1024 * (t.val % 4) + k.val) :
    xblk m c t (ix2 p k) = xarr m c (ix2 P K) := by
  obtain ⟨e0, e1, -, -, -, -⟩ := block_numbers t
  show V m c main_v14 (((cfg0.win 0).blk t).view.emb (ix2 p k)) = _
  rw [staged_x]
  congr 1
  funext a
  apply Fin.ext
  match a with
  | ⟨0, _⟩ => show win0_0.index t (0 : Fin 2) * 1024 + 1 * p.val = P.val; rw [e0, hP]; omega
  | ⟨1, _⟩ => show win0_0.index t (1 : Fin 2) * 1024 + 1 * k.val = K.val; rw [e1, hK]; omega

/-- The W block at (k, q) is W at row 1024 s + k, column 1024 j + q. -/
theorem wblk_apply (c : Dev nD) (t : Fin cfg0.N) (k q : Fin 1024) (K Q : Fin 4096)
    (hK : K.val = 1024 * (t.val % 4) + k.val) (hQ : Q.val = 1024 * (t.val / 4 % 4) + q.val) :
    wblk m c t (ix2 k q) = Cert.HankelProduct.W (darr m c) (ix2 K Q) := by
  obtain ⟨-, -, e0, e1, -, -⟩ := block_numbers t
  show V m c main_v15 (((cfg0.win 1).blk t).view.emb (ix2 k q)) = _
  rw [staged_w]
  congr 1
  funext a
  apply Fin.ext
  match a with
  | ⟨0, _⟩ => show win0_1.index t (0 : Fin 2) * 1024 + 1 * k.val = K.val; rw [e0, hK]; omega
  | ⟨1, _⟩ => show win0_1.index t (1 : Fin 2) * 1024 + 1 * q.val = Q.val; rw [e1, hQ]; omega

/-! ## The scratch along a run of four points -/

/-- Equal point numbers name the same contents. -/
theorem outsAt0_congr (c : Dev nD) (a b : ℕ) (ha : a < cfg0.N) (hb : b < cfg0.N) (e : a = b) :
    outsAt0 m c a ha = outsAt0 m c b hb := by subst e; rfl

/-- After the first point of a run the scratch is step(zero, X, B). -/
theorem scratch_after_first (c : Dev nD) (n : ℕ) (h : n < cfg0.N) (h0 : n % 4 = 0) :
    (outsAt0 m c n h).2 = k0_pay2 (k0_pay1 (F := Ideal)) (xblk m c ⟨n, h⟩) (wblk m c ⟨n, h⟩) := by
  have h1 : ¬n % 4 = 3 := by omega
  rw [outsAt0_A m c ⟨n, h⟩ h0 h1]
  dsimp only
  exact Steps.scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩)

/-- After any later point b = a + 1 of the run it is step(what point a left, X, B). -/
theorem scratch_after_next (c : Dev nD) (a b : ℕ) (ha : a < cfg0.N) (hb : b < cfg0.N) (hab : b = a + 1)
    (h0 : ¬b % 4 = 0) :
    (outsAt0 m c b hb).2 = k0_pay2 (F := Ideal) (outsAt0 m c a ha).2 (xblk m c ⟨b, hb⟩) (wblk m c ⟨b, hb⟩) := by
  have hprev : outsAt0 m c (b - 1) (Nat.lt_of_le_of_lt (Nat.sub_le _ _) hb) = outsAt0 m c a ha :=
    outsAt0_congr m c _ _ _ _ (by omega)
  by_cases h1 : b % 4 = 3
  · rw [outsAt0_C m c ⟨b, hb⟩ h0 h1]
    dsimp only
    rw [hprev]
    exact Steps.scratch_last (F := Ideal) c (grid0.coords ⟨b, hb⟩) (ms0_0 ⟨b, hb⟩) (hs0_0 ⟨b, hb⟩) (ms0_1 ⟨b, hb⟩) (hs0_1 ⟨b, hb⟩) (ms0_2 ⟨b, hb⟩) (hs0_2 ⟨b, hb⟩) scM0_0 (Memref.isWhole_whole _) (fun hh => h0 ((hcond0_0 ⟨b, hb⟩).mp hh))
      ((hcond0_1 ⟨b, hb⟩).mpr h1) (iblk m c 0 ⟨b, hb⟩) (iblk m c 1 ⟨b, hb⟩) (outsAt0 m c a ha).2
  · rw [outsAt0_B m c ⟨b, hb⟩ h0 h1]
    dsimp only
    rw [hprev]
    exact Steps.scratch_middle (F := Ideal) c (grid0.coords ⟨b, hb⟩) (ms0_0 ⟨b, hb⟩) (hs0_0 ⟨b, hb⟩) (ms0_1 ⟨b, hb⟩) (hs0_1 ⟨b, hb⟩) (ms0_2 ⟨b, hb⟩) (hs0_2 ⟨b, hb⟩) scM0_0 (Memref.isWhole_whole _) (fun hh => h0 ((hcond0_0 ⟨b, hb⟩).mp hh))
      (fun hh => h1 ((hcond0_1 ⟨b, hb⟩).mp hh)) (iblk m c 0 ⟨b, hb⟩) (iblk m c 1 ⟨b, hb⟩) (outsAt0 m c a ha).2

/-- At the last point b = a + 1 of a run the output block is that same step. -/
theorem output_at_last (c : Dev nD) (a b : ℕ) (ha : a < cfg0.N) (hb : b < cfg0.N) (hab : b = a + 1)
    (h3 : b % 4 = 3) :
    (outsAt0 m c b hb).1 = k0_pay2 (F := Ideal) (outsAt0 m c a ha).2 (xblk m c ⟨b, hb⟩) (wblk m c ⟨b, hb⟩) := by
  have h0 : ¬b % 4 = 0 := by omega
  have hprev : outsAt0 m c (b - 1) (Nat.lt_of_le_of_lt (Nat.sub_le _ _) hb) = outsAt0 m c a ha :=
    outsAt0_congr m c _ _ _ _ (by omega)
  rw [outsAt0_C m c ⟨b, hb⟩ h0 h3]
  dsimp only
  rw [hprev]
  exact Steps.output_last (F := Ideal) c (grid0.coords ⟨b, hb⟩) (ms0_0 ⟨b, hb⟩) (hs0_0 ⟨b, hb⟩) (ms0_1 ⟨b, hb⟩) (hs0_1 ⟨b, hb⟩) (ms0_2 ⟨b, hb⟩) (hs0_2 ⟨b, hb⟩) scM0_0 (Memref.isWhole_whole _) (fun hh => h0 ((hcond0_0 ⟨b, hb⟩).mp hh))
    ((hcond0_1 ⟨b, hb⟩).mpr h3) (iblk m c 0 ⟨b, hb⟩) (iblk m c 1 ⟨b, hb⟩) (outsAt0 m c a ha).2

/-- The block written back at the last point n + 3 of the run n, n + 1, n + 2, n + 3: four steps from zero. -/
theorem output_of_run (c : Dev nD) (n : ℕ) (h : n + 3 < cfg0.N) (h0 : n % 4 = 0) :
    (outsAt0 m c (n + 3) h).1
      = k0_pay2 (F := Ideal) (k0_pay2 (k0_pay2 (k0_pay2 (k0_pay1 (F := Ideal))
            (xblk m c ⟨n, by omega⟩) (wblk m c ⟨n, by omega⟩))
          (xblk m c ⟨n + 1, by omega⟩) (wblk m c ⟨n + 1, by omega⟩))
          (xblk m c ⟨n + 2, by omega⟩) (wblk m c ⟨n + 2, by omega⟩))
        (xblk m c ⟨n + 3, h⟩) (wblk m c ⟨n + 3, h⟩) := by
  rw [output_at_last m c (n + 2) (n + 3) (by omega) h rfl (by omega),
    scratch_after_next m c (n + 1) (n + 2) (by omega) (by omega) rfl (by omega),
    scratch_after_next m c n (n + 1) (by omega) (by omega) rfl (by omega),
    scratch_after_first m c n (by omega) h0]

/-! ## What is written back, and the whole array -/

/-- The reference's value of the arguments on core c: what the result array is to hold. -/
abbrev result (c : Dev nD) : S8192x4096.Idx → EReal :=
  Cert.ReferenceIdeal.Read.val_main_v14 (F := Ideal) (xarr m c) (darr m c)

/-- THE ENTRY (p, q) OF THE BLOCK WRITTEN BACK at the last point n + 3 of a run is the reference's entry at row
    1024 i + p, column 1024 j + q, (i, j) the run's block of the result. -/
theorem entry_of_run (c : Dev nD) (n : ℕ) (h : n + 3 < cfg0.N) (h0 : n % 4 = 0) (p q : Fin 1024)
    (P : Fin 8192) (Q : Fin 4096) (hP : P.val = 1024 * ((n + 3) / 16) + p.val)
    (hQ : Q.val = 1024 * ((n + 3) / 4 % 4) + q.val) :
    (outsAt0 m c (n + 3) h).1 (ix2 p q) = result m c (ix2 P Q) := by
  have hn : n + 3 < 128 := lt_of_lt_of_eq h (show cfg0.N = 128 from N_0)
  rw [output_of_run m c n h h0]
  refine Eq.trans ?_ (Cert.HankelProduct.reference_apply (xarr m c) (darr m c) P Q).symm
  exact four_steps (xarr m c) (Cert.HankelProduct.W (darr m c)) (Cert.HankelProduct.W_symm _) _ _ _ _ _ _ _ _ P Q p q
    (fun k => xblk_apply m c ⟨n, by omega⟩ p k P _ (by dsimp only; omega) (by dsimp only; omega))
    (fun k => xblk_apply m c ⟨n + 1, by omega⟩ p k P _ (by dsimp only; omega) (by dsimp only; omega))
    (fun k => xblk_apply m c ⟨n + 2, by omega⟩ p k P _ (by dsimp only; omega) (by dsimp only; omega))
    (fun k => xblk_apply m c ⟨n + 3, h⟩ p k P _ (by dsimp only; omega) (by dsimp only; omega))
    (fun k => wblk_apply m c ⟨n, by omega⟩ k q _ Q (by dsimp only; omega) (by dsimp only; omega))
    (fun k => wblk_apply m c ⟨n + 1, by omega⟩ k q _ Q (by dsimp only; omega) (by dsimp only; omega))
    (fun k => wblk_apply m c ⟨n + 2, by omega⟩ k q _ Q (by dsimp only; omega) (by dsimp only; omega))
    (fun k => wblk_apply m c ⟨n + 3, h⟩ k q _ Q (by dsimp only; omega) (by dsimp only; omega))

/-- WHAT A WRITING POINT WRITES BACK is its block of the reference's value. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have hN : t.val < 128 := lt_of_lt_of_eq t.isLt (show cfg0.N = 128 from N_0)
  obtain ⟨tv, ht⟩ := t
  obtain ⟨n, rfl⟩ : ∃ n, tv = n + 3 := ⟨tv - 3, by dsimp only at h3; omega⟩
  have h0 : n % 4 = 0 := by dsimp only at h3; omega
  have hn : n + 3 < 128 := hN
  rw [flushed2]
  obtain ⟨-, -, -, -, e0, e1⟩ := block_numbers ⟨n + 3, ht⟩
  funext j
  have hj0 : (j 0).val < 1024 := (j 0).isLt
  have hj1 : (j 1).val < 1024 := (j 1).isLt
  show (outsAt0 m c (n + 3) ht).1 ((cfg0.win 2).xinj (grid0.coords ⟨n + 3, ht⟩) j)
    = result m c (((cfg0.win 2).blk ⟨n + 3, ht⟩).view.emb j)
  have hx : (cfg0.win 2).xinj (grid0.coords ⟨n + 3, ht⟩) j
      = ix2 (⟨(j 0).val, hj0⟩ : Fin 1024) (⟨(j 1).val, hj1⟩ : Fin 1024) := funext fun a => by
    match a with
    | ⟨0, _⟩ => rfl
    | ⟨1, _⟩ => rfl
  have hemb : ((cfg0.win 2).blk ⟨n + 3, ht⟩).view.emb j
      = ix2 (⟨1024 * ((n + 3) / 16) + (j 0).val, by omega⟩ : Fin 8192)
          (⟨1024 * ((n + 3) / 4 % 4) + (j 1).val, by omega⟩ : Fin 4096) := by
    funext a
    apply Fin.ext
    match a with
    | ⟨0, _⟩ =>
      show win0_2.index ⟨n + 3, ht⟩ (0 : Fin 2) * 1024 + 1 * (j 0).val = 1024 * ((n + 3) / 16) + (j 0).val
      rw [e0]; dsimp only; omega
    | ⟨1, _⟩ =>
      show win0_2.index ⟨n + 3, ht⟩ (1 : Fin 2) * 1024 + 1 * (j 1).val = 1024 * ((n + 3) / 4 % 4) + (j 1).val
      rw [e1]; dsimp only; omega
  rw [hx, hemb]
  exact entry_of_run m c n ht h0 _ _ _ _ rfl rfl

/-- An index of the result array is in point t's block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v16).slice (win0_2.rect t)).set ↔ _
  rw [View.set_slice_whole, Rect.mem_set_unit]
  exact Iff.rfl

/-- THE BLOCKS WRITTEN BACK TILE THE ARRAY: entry (P, Q) lies in the block written at the last point of the run
    of block (P / 1024, Q / 1024). -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : 16 * ((i 0).val / 1024) + 4 * ((i 1).val / 1024) + 3 < cfg0.N := by
    rw [show cfg0.N = 128 from N_0]; omega
  refine ⟨⟨16 * ((i 0).val / 1024) + 4 * ((i 1).val / 1024) + 3, hlt⟩, (flush0_2 _).mpr (by dsimp only; omega), ?_⟩
  obtain ⟨-, -, -, -, e0, e1⟩ := block_numbers ⟨16 * ((i 0).val / 1024) + 4 * ((i 1).val / 1024) + 3, hlt⟩
  rw [mem_block]
  intro a
  match a with
  | ⟨0, _⟩ =>
    show win0_2.index _ (0 : Fin 2) * 1024 ≤ (i 0).val ∧ (i 0).val < win0_2.index _ (0 : Fin 2) * 1024 + 1024
    rw [e0]; dsimp only; omega
  | ⟨1, _⟩ =>
    show win0_2.index _ (1 : Fin 2) * 1024 ≤ (i 1).val ∧ (i 1).val < win0_2.index _ (1 : Fin 2) * 1024 + 1024
    rw [e1]; dsimp only; omega

/-- THE RESULT ARRAY after the run is the reference's value of the arguments. -/
theorem final (c : Dev nD) : (dats m 0 c).arrAt 2 cfg0.N = result m c :=
  (dats m 0 c).arrAt_eq_of_cover 2 (result m c) (fun t hf => flushed_eq m c t hf) covered

/-- The kernel's run: every weakly fair execution terminates with the result array at the reference's value of
    the arguments, and the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.lean ====
/-
  A product with a matrix constant along its anti-diagonals.

  From a vector d of 8191 entries both programs gather the matrix W of shape [4096, 4096] with W(a, b) = d(a + b)
  (the sum taken on 32-bit words, read signed and clamped into the vector's range).  The reference returns, for x of
  shape [8192, 4096], the array with entry (P, Q) = Σ_{k < 4096} x(P, k) · W(Q, k).  The kernel converts x and W to a
  shorter float format, which on the extended reals changes nothing, and computes x·W by blocks of 1024: for each
  block (i, j) of the result it adds up, over the four blocks s of the contraction, the products of the block (i, s)
  of x with the block (s, j) of W, starting from zero; its entry (P, Q) is Σ_{k < 4096} x(P, k) · W(k, Q).

  The two agree because W is symmetric (word addition commutes) and because the sum over 4096 indices is the sum of
  its four quarters, in whatever grouping: addition on the extended reals is commutative and associative with
  neutral element zero.  No entry has to be finite, so the precondition is not used.

  Modules: SumBlocks (a long sum by blocks), Hankel (W, its symmetry, the reference's entry), Pieces (what one grid
  point leaves in the running block), LibOuterDot (a matrix product into zero at an entry), Blocks (the four steps of
  a run at an entry, the blocks written back, the whole result array, the kernel's run).
-/
import proofs.«135761_j35399120454032_1_alg».proof.Defs
import proofs.«135761_j35399120454032_1_alg».proof.Proof.Gen.Kernel
import proofs.«135761_j35399120454032_1_alg».proof.Proof.Gen.Kernel.Skeleton
import proofs.«135761_j35399120454032_1_alg».proof.Proof.Gen.Kernel.Launch
import proofs.«135761_j35399120454032_1_alg».proof.Proof.Gen.Kernel.Points
import proofs.«135761_j35399120454032_1_alg».proof.Proof.Gen.Kernel.Frame
import proofs.«135761_j35399120454032_1_alg».proof.Proof.Gen.KernelIdeal
import proofs.«135761_j35399120454032_1_alg».proof.Proof.Gen.KernelIdeal.Skeleton
import proofs.«135761_j35399120454032_1_alg».proof.Proof.Gen.KernelIdeal.Launch
import proofs.«135761_j35399120454032_1_alg».proof.Proof.Gen.KernelIdeal.Points
import proofs.«135761_j35399120454032_1_alg».proof.Proof.Gen.KernelIdeal.Frame
import proofs.«135761_j35399120454032_1_alg».proof.Proof.Gen.ReferenceIdeal
import proofs.«135761_j35399120454032_1_alg».proof.Proof.Gen.Pre_finite_inputs
import proofs.«135761_j35399120454032_1_alg».proof.Proof.Gen.KernelIdeal.Value
import proofs.«135761_j35399120454032_1_alg».proof.Proof.Gen.ReferenceIdeal.Run
import proofs.«135761_j35399120454032_1_alg».proof.Proof.Gen.ReferenceIdeal.Read
import proofs.«135761_j35399120454032_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation: nothing to state. -/
theorem preserves : Cert.preserves_Kernel_KernelIdeal := trivial

/-- From memories that agree on x and d, both programs end with the result array at the reference's value
    Σ_k x(P, k) · W(Q, k): the kernel by its four-block accumulation and the symmetry of W, the reference by its
    own run. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
